-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_sqrt_d" .f32 0x3DB504F3#32 ((1048576 / 11863283 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S32 : Shape := ⟨1, ![32]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v15 : IVec S32 1) (main_c_5 : IVec S_ 1) : IVec S_ 1 :=
  let main_v16 : IVec S_ 1 := (fun x v => Host.reduce IntOp.andi x v reducesTo_S32_S_d0 h_S_) main_v15 main_c_5
  let main_v17 : IVec S_ 1 := andi main_v13 main_v16
  main_v17

def fn {F : FTy → Type} [FloatOps F] (main_arg0 : FVec F S32x2048x128 .f32) (main_arg1 : FVec F S32x2048x128 .f32) (main_arg2 : FVec F S32x2048x128 .f32) (main_arg3 : IVec S32 32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_v9 : FVec F S32x2048x128 .f32 := Host.absf main_arg2
  let main_cst_2 : FVec F S_ .f32 := constant S_ .f32 0x7F800000#32
  let main_v10 : FVec F S32x2048x128 .f32 := broadcastInDim S32x2048x128 ![] bcast_S_S32x2048x128 main_cst_2
  let main_v11 : IVec S32x2048x128 1 := cmpf .olt main_v9 main_v10
  let main_c_3 : IVec S_ 1 := constantI S_ 1 1#1
  let main_v12 : IVec S_ 1 := (fun x v => Host.reduce IntOp.andi x v reducesTo_S32x2048x128_S_d0_1_2 h_S_) main_v11 main_c_3
  let main_v13 : IVec S_ 1 := andi main_v8 main_v12
  let main_c_4 : IVec S_ 32 := constantI S_ 32 1#32
  let main_v14 : IVec S32 32 := broadcastInDim S32 ![] bcast_S_S32 main_c_4
  let main_v15 : IVec S32 1 := cmpi .sge main_arg3 main_v14
  let main_c_5 : IVec S_ 1 := constantI S_ 1 1#1
  fn_part1 (F := F) main_v13 main_v15 main_c_5
-- ==== Kernel.lean ====
abbrev S32x2048x128 : Shape := ⟨3, ![32, 2048, 128]⟩
abbrev S32 : Shape := ⟨1, ![32]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S128x2048 : Shape := ⟨2, ![128, 2048]⟩
abbrev S1024x2048 : Shape := ⟨2, ![1024, 2048]⟩
abbrev S1 : Shape := ⟨1, ![1]⟩
abbrev S1024 : Shape := ⟨1, ![1024]⟩
abbrev S1024x1 : Shape := ⟨2, ![1024, 1]⟩

abbrev nBuf : Space → Nat
  | .hbm => 4
  | .vmem => 8
  | .smem => 1
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .smem, ⟨0, _⟩ => ⟨S32, .i32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v13 : Index := Scalar.indexCast arg0
  ![v13.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  transposes_S2048x128_p1_0_S128x2048 : S2048x128.Transposes [1, 0] S128x2048
  numel1_S1 : S1.numel = 1
  iota_S1024x2048_d1_w32 : S1024x2048.Iotas .tc 32 [1]
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  shapeCasts_S1024x128_S1x1024x128 : S1024x128.ShapeCasts S1x1024x128
  dot_S1024x128_S128x2048_S1024x2048_1_0_0_1_n_n_wf : DotDims.WF S1024x128 S128x2048 S1024x2048 [1] [0] [0] [1] [] []
  dot_S1024x2048_S2048x128_S1024x128_1_0_0_1_n_n_wf : DotDims.WF S1024x2048 S2048x128 S1024x128 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .f32 = 32 ∨ (Rect.block (s := S32x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev spec0_0 : Pipeline.WinSpec sig grid0.rank :=
  Pipeline.WinSpec.ofSpec (Memref.whole main_arg0) S1x1024x128.size reads0_0 false false 2 stage0_0 sem0_0 nbuf0_0 hstage0_0

abbrev spec0_1 : Pipeline.WinSpec sig grid0.rank :=
  Pipeline.WinSpec.ofSpec (Memref.whole main_arg1) S1x2048x128.size reads0_1 false false 2 stage0_1 sem0_1 nbuf0_1 hstage0_1

abbrev spec0_2 : Pipeline.WinSpec sig grid0.rank :=
  Pipeline.WinSpec.ofSpec (Memref.whole main_arg2) S1x2048x128.size reads0_2 false false 2 stage0_2 sem0_2 nbuf0_2 hstage0_2

abbrev spec0_3 : Pipeline.WinSpec sig grid0.rank :=
  Pipeline.WinSpec.ofSpec (Memref.whole main_v0) S1x1024x128.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S32x2048x128 : Shape := ⟨3, ![32, 2048, 128]⟩
abbrev S32 : Shape := ⟨1, ![32]⟩
abbrev S32x2048x2048 : Shape := ⟨3, ![32, 2048, 2048]⟩
abbrev S_ : Shape := ⟨0, ![]⟩
abbrev S2048 : Shape := ⟨1, ![2048]⟩
abbrev S1x1x2048 : Shape := ⟨3, ![1, 1, 2048]⟩
abbrev S32x1x1 : Shape := ⟨3, ![32, 1, 1]⟩
abbrev S32x1x2048 : Shape := ⟨3, ![32, 1, 2048]⟩
abbrev S32x2048 : Shape := ⟨2, ![32, 2048]⟩
abbrev S32x2048x1 : Shape := ⟨3, ![32, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32, .i32⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S2048, .i32⟩
  | .hbm, ⟨9, _⟩ => ⟨S1x1x2048, .i32⟩
  | .hbm, ⟨10, _⟩ => ⟨S32x1x1, .i32⟩
  | .hbm, ⟨11, _⟩ => ⟨S32x1x2048, .i32⟩
  | .hbm, ⟨12, _⟩ => ⟨S32x1x2048, .i32⟩
  | .hbm, ⟨13, _⟩ => ⟨S32x1x2048, .i1⟩
  | .hbm, ⟨14, _⟩ => ⟨S_, .f32⟩
  | .hbm, ⟨15, _⟩ => ⟨S_, .f32⟩
  | .hbm, ⟨16, _⟩ => ⟨S32x2048x2048, .i1⟩
  | .hbm, ⟨17, _⟩ => ⟨S32x2048x2048, .f32⟩
  | .hbm, ⟨18, _⟩ => ⟨S32x2048x2048, .f32⟩
  | .hbm, ⟨19, _⟩ => ⟨S_, .f32⟩
  | .hbm, ⟨20, _⟩ => ⟨S32x2048, .f32⟩
  | .hbm, ⟨21, _⟩ => ⟨S_, .f32⟩
  | .hbm, ⟨22, _⟩ => ⟨S32x2048, .f32⟩
  | .hbm, ⟨23, _⟩ => ⟨S32x2048, .f32⟩
  | .hbm, ⟨24, _⟩ => ⟨S32x2048x1, .f32⟩
  | .hbm, ⟨25, _⟩ => ⟨S32x2048x2048, .f32⟩
  | .hbm, ⟨26, _⟩ => ⟨S32x2048x2048, .f32⟩
  | .hbm, ⟨27, _⟩ => ⟨S32x2048x2048, .f32⟩
  | .hbm, ⟨28, _⟩ => ⟨S_, .f32⟩
  | .hbm, ⟨29, _⟩ => ⟨S32x2048, .f32⟩
  | .hbm, ⟨30, _⟩ => ⟨S32x2048x1, .f32⟩
  | .hbm, ⟨31, _⟩ => ⟨S32x2048x2048, .f32⟩
  | .hbm, ⟨32, _⟩ => ⟨S32x2048x2048, .f32⟩
  | .hbm, ⟨33, _⟩ => ⟨S32x2048x128, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  bcast_S2048_S1x1x2048_2 : S2048.BroadcastsInDim S1x1x2048 (![2] : Fin 1 → Fin S1x1x2048.rank)
  bcast_S32_S32x1x1_0 : S32.BroadcastsInDim S32x1x1 (![0] : Fin 1 → Fin S32x1x1.rank)
  bcast_S1x1x2048_S32x1x2048_0_1_2 : S1x1x2048.BroadcastsInDim S32x1x2048 (![0, 1, 2] : Fin 3 → Fin S32x1x2048.rank)
  bcast_S32x1x1_S32x1x2048_0_1_2 : S32x1x1.BroadcastsInDim S32x1x2048 (![0, 1, 2] : Fin 3 → Fin S32x1x2048.rank)
  bcast_S32x1x2048_S32x2048x2048_0_1_2 : S32x1x2048.BroadcastsInDim S32x2048x2048 (![0, 1, 2] : Fin 3 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x128_S32x2048x128_S32x2048x2048_2_2_1_1_0_0_wf : DotDims.WF S32x2048x128 S32x2048x128 S32x2048x2048 [2] [2] [1] [1] [0] [0]
  dot_S32x2048x2048_S32x2048x128_S32x2048x128_2_1_1_2_0_0_wf : DotDims.WF S32x2048x2048 S32x2048x128 S32x2048x128 [2] [1] [1] [2] [0] [0]

variable [Facts₀]

def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf
def dot_S32x2048x2048_S32x2048x128_S32x2048x128_2_1_1_2_0_0 : DotDims S32x2048x2048 S32x2048x128 S32x2048x128 where
  lhsContracting := [2]
  rhsContracting := [1]
  lhsNonContracting := [1]
  rhsNonContracting := [2]
  lhsBatch := [0]
  rhsBatch := [0]
  wf := dot_S32x2048x2048_S32x2048x128_S32x2048x128_2_1_1_2_0_0_wf

class Facts : Prop extends Facts₀ where

variable [Facts]
-- ==== Proof.AttnSpec.lean ====
/-
  Masked softmax attention of one query row, and of the whole arrays, on the extended reals.

  For a query row q (128 numbers), the keys K (2048 rows of 128) and a length word w, the score of key k is the
  inner product of q with row k of K times the scale 1/D where k lies below w (positions and w compared as signed
  32-bit words), and minus infinity elsewhere. The row maximum M folds max over the scores from minus infinity;
  the weight of key k is exp (score k - M). Two ways to finish, equal on the reals but different expressions:
  divide the weighted sum of the value rows once by the sum of the weights (outOnce), or normalise each weight by
  the sum of the weights first and then sum (outEach). D is the f32 nearest to the square root of 128.
-/
import Idealize.ShloMosaic.PureOps.Ideal
import Idealize.ShloMosaic.Lib.ValueIdx

noncomputable section

open scoped BigOperators

namespace Cert.Attn

open Idealize.ShloMosaic Idealize.ShloMosaic.ValueIdx

/-- The arrays' shape [32, 2048, 128] (batch, position, feature) and the lengths' shape [32]. -/
abbrev SA : Shape := ⟨3, ![32, 2048, 128]⟩
abbrev SL : Shape := ⟨1, ![32]⟩

/-- The scale: the exact reciprocal of D = 11863283 / 2^20. -/
def scale : EReal := (((1048576 : ℝ) / 11863283 : ℝ) : EReal)

/-- The score of key k for one query row under the length word w. -/
def score (q : Fin 128 → EReal) (K : Fin 2048 → Fin 128 → EReal) (w : BitVec 32) (k : Fin 2048) : EReal :=
  Scalar.select (IntOp.cmpi .slt (BitVec.ofNat 32 k.val) w) ((∑ e : Fin 128, q e * K k e) * scale) ⊥

section Row
variable {ι : Type} [Fintype ι]

/-- The maximum of a row of scores, folded from minus infinity. -/
def rowMax (s : ι → EReal) : EReal := (Finset.univ : Finset ι).fold max ⊥ s

/-- The weight of key k: exp of its score's distance below the row maximum. -/
def weight (s : ι → EReal) (k : ι) : EReal := Ideal.exp (s k - rowMax s)

/-- The weighted sum of the values divided ONCE by the sum of the weights. -/
def outOnce (s v : ι → EReal) : EReal := Ideal.div (∑ k, weight s k * v k) (∑ k, weight s k)

/-- Each weight divided by the sum of the weights, THEN the weighted sum of the values. -/
def outEach (s v : ι → EReal) : EReal := ∑ k, Ideal.div (weight s k) (∑ j, weight s j) * v k

end Row

/-- The scores of query row (b, r) of the arrays Q and K under the lengths L. -/
def rowScore (Q K : SA.Idx → EReal) (L : SL.Idx → BitVec 32) (b : Fin 32) (r : Fin 2048) : Fin 2048 → EReal :=
  score (fun e => Q (ix3 b r e)) (fun k e => K (ix3 b k e)) (L (ix1 b))

/-- Column d of the value rows of batch b. -/
def valCol (V : SA.Idx → EReal) (b : Fin 32) (d : Fin 128) : Fin 2048 → EReal := fun k => V (ix3 b k d)

/-- The attention output, dividing once. -/
def attnOnce (Q K V : SA.Idx → EReal) (L : SL.Idx → BitVec 32) : SA.Idx → EReal := fun i =>
  outOnce (rowScore Q K L (i 0) (i 1)) (valCol V (i 0) (i 2))

/-- The attention output, normalising each weight first. -/
def attnEach (Q K V : SA.Idx → EReal) (L : SL.Idx → BitVec 32) : SA.Idx → EReal := fun i =>
  outEach (rowScore Q K L (i 0) (i 1)) (valCol V (i 0) (i 2))

end Cert.Attn

end
-- ==== Proof.AttnConsts.lean ====
/-
  The float words the two programs spell, as the extended reals they denote: the reference's divisor
  (the f32 nearest to the square root of 128, the dyadic 11863283 / 2^20), the f32 minus infinity that fills
  masked scores and starts the row maximum, and the kernel's two named words: the scale, read as the exact
  reciprocal of that divisor, and the mask fill, read as minus infinity.
-/
import Idealize.ShloMosaic.PureOps.Ideal
import Idealize.ShloMosaic.PureOps.IdealRules

noncomputable section

namespace Cert.Attn.Consts

open Idealize.ShloMosaic

/-- The word 0x413504F3 is the dyadic 11863283 / 2^20. -/
theorem ofBits_sqrt128 : Ideal.ofBits .f32 0x413504F3#32 = (((11863283 : ℝ) / 1048576 : ℝ) : EReal) := by
  simp [Ideal.ofBits, Ideal.ieee, -EReal.coe_mul]; norm_num

/-- The word 0xFF800000 is minus infinity. -/
theorem ofBits_neg_inf : Ideal.ofBits .f32 0xFF800000#32 = ⊥ := by
  simp [Ideal.ofBits, Ideal.ieee]

end Cert.Attn.Consts

end
-- ==== Proof.AttnKernelPay.lean ====
/-
  What the kernel body stores, read at one element. The body loads a block of 1024 query rows, all 2048 key rows and
  all 2048 value rows of one batch element, and one length word w, and stores for query row r and feature d

      (sum over keys k of p r k * v k d) / (sum over keys k of p r k),     p r k = exp (s r k - max over k of s r k),

  where s r k is the inner product of query row r with key row k times the scale where k lies below w, and minus
  infinity elsewhere. The changes of float format in the body are the identity on the extended reals, the matrix
  products into a zero accumulator are plain sums over the contracted coordinate, the lane reductions are a fold of
  max and a sum over the key coordinate, and the two keepdims columns read their row's entry. So the stored element
  is the specification's outOnce of the row's scores and the value column.
-/
import proofs.«407189_j31748398252253_2_alg».proof.Proof.Gen.KernelIdeal.Skeleton
import proofs.«407189_j31748398252253_2_alg».proof.Proof.AttnSpec
import proofs.«407189_j31748398252253_2_alg».proof.Proof.AttnConsts
import Idealize.ShloMosaic.Lib.Pipeline.Value
import Idealize.ShloMosaic.Lib.ValueLayout
import Idealize.ShloMosaic.Lib.ValueIdx
import Idealize.ShloMosaic.PureOps.Ideal.Laws
import Idealize.ShloMosaic.PureOps.IdealRules

noncomputable section

open scoped BigOperators

namespace Cert.KernelIdeal.Pay

open Cert.KernelIdeal Idealize.ShloMosaic Idealize.ShloMosaic.ValueIdx Cert.Attn

/-! ## Two layout readings the body needs: a vector as a one-column matrix, and that column copied along rows -/

/-- A vector of length a cast to an [a, 1] column reads, at (i, z), the vector at i. -/
theorem castCol_apply {α : Type} {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- An [a, 1] column broadcast to [a, b] reads, at (i, j), the column at (i, 0). -/
theorem bcastCol_apply {α : Type} {a b : ℕ} (ha : a ≠ 1) (y : (⟨2, ![a, 1]⟩ : Shape).Idx → α)
    (h : (⟨2, ![a, 1]⟩ : Shape).Broadcasts ⟨2, ![a, b]⟩) (i : Fin a) (j : Fin b) :
    broadcastTo ⟨2, ![a, b]⟩ y h (ix2 i j) = y (ix2 i (0 : Fin 1)) :=
  broadcastTo_apply y h _ _ fun c => match c with
    | ⟨0, _⟩ => by show i.val = if a = 1 then 0 else i.val; rw [if_neg ha]
    | ⟨1, _⟩ => by show 0 = if (1 : ℕ) = 1 then 0 else j.val; rw [if_pos rfl]

/-! ## The two matrix products, as sums over the contracted coordinate -/

abbrev dQK := dot_S1024x128_S128x2048_S1024x2048_1_0_0_1_n_n
abbrev dPV := dot_S1024x2048_S2048x128_S1024x128_1_0_0_1_n_n

theorem lhs_dot_S1024x128_S128x2048_S1024x2048_1_0_0_1_n_n_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
theorem lhs_dot_S1024x128_S128x2048_S1024x2048_1_0_0_1_n_n_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
theorem rhs_dot_S1024x128_S128x2048_S1024x2048_1_0_0_1_n_n_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q
theorem rhs_dot_S1024x128_S128x2048_S1024x2048_1_0_0_1_n_n_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-- Queries times transposed keys, into zero: entry (i, j) is the sum over the 128 features. -/
theorem qk_apply (l : FVec Ideal S1024x128 .bf16) (r : FVec Ideal S128x2048 .bf16) (i : Fin 1024) (j : Fin 2048) :
    matmul dot_S1024x128_S128x2048_S1024x2048_1_0_0_1_n_n none l r (constant S1024x2048 .f32 0x00000000#32) (ix2 i j)
      = ∑ e : Fin 128, l (ix2 i e) * r (ix2 e j) := by
  simp only [matmul]
  rw [Ideal.matmul_constant_zero_apply, ← Equiv.sum_comp (ValueIdx.contrEquiv1 dot_S1024x128_S128x2048_S1024x2048_1_0_0_1_n_n 128 rfl rfl).symm]
  refine Finset.sum_congr rfl fun k _ => ?_
  have hk := ValueIdx.contrEquiv1_symm_val dot_S1024x128_S128x2048_S1024x2048_1_0_0_1_n_n 128 rfl rfl k
  have el : dot_S1024x128_S128x2048_S1024x2048_1_0_0_1_n_n.lhsIdx (ix2 i j) ((ValueIdx.contrEquiv1 dot_S1024x128_S128x2048_S1024x2048_1_0_0_1_n_n 128 rfl rfl).symm k) = ix2 i k := funext fun a => Fin.ext (by
    match a with
    | ⟨0, _⟩ => exact lhs_dot_S1024x128_S128x2048_S1024x2048_1_0_0_1_n_n_0 _ _
    | ⟨1, _⟩ => exact (lhs_dot_S1024x128_S128x2048_S1024x2048_1_0_0_1_n_n_1 _ _).trans hk)
  have er : dot_S1024x128_S128x2048_S1024x2048_1_0_0_1_n_n.rhsIdx (ix2 i j) ((ValueIdx.contrEquiv1 dot_S1024x128_S128x2048_S1024x2048_1_0_0_1_n_n 128 rfl rfl).symm k) = ix2 k j := funext fun a => Fin.ext (by
    match a with
    | ⟨0, _⟩ => exact (rhs_dot_S1024x128_S128x2048_S1024x2048_1_0_0_1_n_n_0 _ _).trans hk
    | ⟨1, _⟩ => exact rhs_dot_S1024x128_S128x2048_S1024x2048_1_0_0_1_n_n_1 _ _)
  rw [el, er]

theorem lhs_dot_S1024x2048_S2048x128_S1024x128_1_0_0_1_n_n_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_dot_S1024x2048_S2048x128_S1024x128_1_0_0_1_n_n_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_dot_S1024x2048_S2048x128_S1024x128_1_0_0_1_n_n_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_dot_S1024x2048_S2048x128_S1024x128_1_0_0_1_n_n_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Weights times values, into zero: entry (i, j) is the sum over the 2048 keys. -/
theorem pv_apply (l : FVec Ideal S1024x2048 .bf16) (r : FVec Ideal S2048x128 .bf16) (i : Fin 1024) (j : Fin 128) :
    matmul dot_S1024x2048_S2048x128_S1024x128_1_0_0_1_n_n none l r (constant S1024x128 .f32 0x00000000#32) (ix2 i j)
      = ∑ k : Fin 2048, l (ix2 i k) * r (ix2 k j) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 i j) ((ValueIdx.contrEquiv1 dot_S1024x2048_S2048x128_S1024x128_1_0_0_1_n_n 2048 rfl rfl).symm k) = ix2 i k := funext fun a => Fin.ext (by
    match a with
    | ⟨0, _⟩ => exact lhs_dot_S1024x2048_S2048x128_S1024x128_1_0_0_1_n_n_0 _ _
    | ⟨1, _⟩ => exact (lhs_dot_S1024x2048_S2048x128_S1024x128_1_0_0_1_n_n_1 _ _).trans hk)
  have er : dot_S1024x2048_S2048x128_S1024x128_1_0_0_1_n_n.rhsIdx (ix2 i j) ((ValueIdx.contrEquiv1 dot_S1024x2048_S2048x128_S1024x128_1_0_0_1_n_n 2048 rfl rfl).symm k) = ix2 k j := funext fun a => Fin.ext (by
    match a with
    | ⟨0, _⟩ => exact (rhs_dot_S1024x2048_S2048x128_S1024x128_1_0_0_1_n_n_0 _ _).trans hk
    | ⟨1, _⟩ => exact rhs_dot_S1024x2048_S2048x128_S1024x128_1_0_0_1_n_n_1 _ _)
  rw [el, er]

/-! ## The kernel's two named words -/

/-- The scale word denotes the exact reciprocal of the reference's divisor. -/
theorem named_scale : Named.named (F := Ideal) κ "inv_sqrt_d" (φ := .f32) 0x3DB504F3#32 = scale :=
  IdealRules.named_const.ideal_named_scalar _ _ _ _ rfl

/-- The mask fill denotes minus infinity. -/
theorem named_fill : Named.named (F := Ideal) κ "neg_big" (φ := .f32) 0xFF333332#32 = (⊥ : EReal) :=
  IdealRules.named_const.ideal_named_scalar _ _ _ _ rfl

/-! ## The body's value in stages -/

variable (v0 : Vec Ideal S1x1024x128 .f32) (v3 v6 : Vec Ideal S1x2048x128 .f32) (w : Elt Ideal .i32)

/-- The query block's rows, the key rows and the value rows of the loaded blocks. -/
abbrev qRow (r : Fin 1024) : Fin 128 → EReal := fun e => v0 (ix3 (0 : Fin 1) r e)
abbrev kRows : Fin 2048 → Fin 128 → EReal := fun k e => v3 (ix3 (0 : Fin 1) k e)
abbrev vCol (d : Fin 128) : Fin 2048 → EReal := fun k => v6 (ix3 (0 : Fin 1) k d)

/-- The masked scaled scores [1024, 2048]. -/
def sMasked : FVec Ideal S1024x2048 .f32 :=
  select (cmpi .slt (iota .tc S1024x2048 32 [1] Gen.iota_S1024x2048_d1_w32) (broadcast S1024x2048 w))
    (mulf (matmul dot_S1024x128_S128x2048_S1024x2048_1_0_0_1_n_n none
        (truncf .bf16 (shapeCast S1024x128 v0 Gen.shapeCasts_S1x1024x128_S1024x128) Gen.bitsLt_bf16_f32)
        (transpose S128x2048 [1, 0] (truncf .bf16 (shapeCast S2048x128 v3 Gen.shapeCasts_S1x2048x128_S2048x128) Gen.bitsLt_bf16_f32) Gen.transposes_S2048x128_p1_0_S128x2048)
        (constant S1024x2048 .f32 0x00000000#32))
      (broadcast S1024x2048 (Named.named κ "inv_sqrt_d" 0x3DB504F3#32)))
    (broadcast S1024x2048 (Named.named κ "neg_big" 0xFF333332#32))

/-- The row maxima [1024]. -/
def mRow : FVec Ideal S1024 .f32 :=
  multiReduction .maximumf [1] S1024 (sMasked v0 v3 w) 0xFF800000#32 Gen.reduces_S1024x2048_S1024 (.inl rfl) rfl

/-- The weights [1024, 2048]. -/
def pW : FVec Ideal S1024x2048 .f32 :=
  exp (subf (sMasked v0 v3 w) (broadcastTo S1024x2048 (shapeCast S1024x1 (mRow v0 v3 w) Gen.shapeCasts_S1024_S1024x1) Gen.broadcasts_S1024x1_S1024x2048))

/-- The row sums of the weights [1024]. -/
def lRow : FVec Ideal S1024 .f32 :=
  multiReduction .add [1] S1024 (pW v0 v3 w) 0x00000000#32 Gen.reduces_S1024x2048_S1024 (.inl rfl) rfl

/-- The stored block [1, 1024, 128]. -/
def stored : FVec Ideal S1x1024x128 .f32 :=
  shapeCast S1x1024x128
    (divf (matmul dot_S1024x2048_S2048x128_S1024x128_1_0_0_1_n_n none (truncf .bf16 (pW v0 v3 w) Gen.bitsLt_bf16_f32)
        (truncf .bf16 (shapeCast S2048x128 v6 Gen.shapeCasts_S1x2048x128_S2048x128) Gen.bitsLt_bf16_f32) (constant S1024x128 .f32 0x00000000#32))
      (broadcastTo S1024x128 (shapeCast S1024x1 (lRow v0 v3 w) Gen.shapeCasts_S1024_S1024x1) Gen.broadcasts_S1024x1_S1024x128))
    Gen.shapeCasts_S1024x128_S1x1024x128

/-- The body's payload is that staged term. -/
theorem pay_eq_stored : Gen.k0_pay1 (F := Ideal) v0 v3 v6 w = stored v0 v3 v6 w := rfl

/-- A score of the block: query row r against key k under the length word. -/
theorem sMasked_apply (r : Fin 1024) (k : Fin 2048) :
    sMasked v0 v3 w (ix2 r k) = score (qRow v0 r) (kRows v3) w k := by
  unfold sMasked score
  rw [select_apply]
  show Scalar.select (IntOp.cmpi .slt (iota .tc S1024x2048 32 [1] Gen.iota_S1024x2048_d1_w32 (ix2 r k)) w)
      (matmul dot_S1024x128_S128x2048_S1024x2048_1_0_0_1_n_n none _ _ (constant S1024x2048 .f32 0x00000000#32) (ix2 r k)
        * Named.named (F := Ideal) κ "inv_sqrt_d" (φ := .f32) 0x3DB504F3#32)
      (Named.named (F := Ideal) κ "neg_big" (φ := .f32) 0xFF333332#32) = _
  rw [iota_single_apply, qk_apply, named_scale, named_fill]
  refine congrArg (fun x => Scalar.select _ (x * scale) ⊥) (Finset.sum_congr rfl fun e _ => ?_)
  refine congrArg₂ (· * ·) ?_ ?_
  · exact shapeCast_1ab_ab_apply v0 Gen.shapeCasts_S1x1024x128_S1024x128 r e
  · refine (transpose_ix2_apply _ Gen.transposes_S2048x128_p1_0_S128x2048 e k).trans ?_
    exact shapeCast_1ab_ab_apply v3 Gen.shapeCasts_S1x2048x128_S2048x128 k e

/-- The reduction's inserted index: row r with key k on the reduced axis. -/
theorem lift_eq (r : Fin 1024) (k : Fin 2048) :
    (Gen.reduces_S1024x2048_S1024 : S1024x2048.Reduces [1] S1024).lift (ix1 r) k = ix2 r k :=
  funext fun a => Fin.ext (by match a with | ⟨0, _⟩ => rfl | ⟨1, _⟩ => rfl)

/-- A row's maximum is the specification's. -/
theorem mRow_apply (r : Fin 1024) : mRow v0 v3 w (ix1 r) = rowMax (score (qRow v0 r) (kRows v3) w) := by
  unfold mRow
  refine (Ideal.multiReduction_maximumf_single (sMasked v0 v3 w) 0xFF800000#32 Gen.reduces_S1024x2048_S1024 (.inl rfl) rfl (ix1 r)).trans ?_
  show (Finset.univ : Finset (Fin 2048)).fold max (Ideal.ofBits .f32 0xFF800000#32) _ = _
  rw [Consts.ofBits_neg_inf]
  unfold rowMax
  refine congrArg (fun f => (Finset.univ : Finset (Fin 2048)).fold max ⊥ f) (funext fun (k : Fin 2048) => ?_)
  exact (congrArg (sMasked v0 v3 w) (lift_eq r k)).trans (sMasked_apply v0 v3 w r k)

/-- A weight of the block is the specification's. -/
theorem pW_apply (r : Fin 1024) (k : Fin 2048) : pW v0 v3 w (ix2 r k) = weight (score (qRow v0 r) (kRows v3) w) k := by
  unfold pW weight
  show Ideal.exp (sMasked v0 v3 w (ix2 r k) - broadcastTo S1024x2048 _ Gen.broadcasts_S1024x1_S1024x2048 (ix2 r k)) = _
  rw [bcastCol_apply (by decide), castCol_apply, mRow_apply, sMasked_apply]

/-- A row's sum of weights. -/
theorem lRow_apply (r : Fin 1024) : lRow v0 v3 w (ix1 r) = ∑ k : Fin 2048, weight (score (qRow v0 r) (kRows v3) w) k := by
  unfold lRow
  refine (Ideal.multiReduction_add_single (pW v0 v3 w) 0x00000000#32 Gen.reduces_S1024x2048_S1024 (.inl rfl) rfl (ix1 r)).trans ?_
  show ∑ k : Fin 2048, pW v0 v3 w ((Gen.reduces_S1024x2048_S1024 : S1024x2048.Reduces [1] S1024).lift (ix1 r) k) = _
  refine Finset.sum_congr rfl fun (k : Fin 2048) _ => ?_
  exact (congrArg (pW v0 v3 w) (lift_eq r k)).trans (pW_apply v0 v3 w r k)

/-- THE STORED ELEMENT: row r, feature d of the block is the weighted sum of value column d divided once by the sum
    of the weights. -/
theorem pay_apply (u : Fin 1) (r : Fin 1024) (d : Fin 128) :
    Gen.k0_pay1 (F := Ideal) v0 v3 v6 w (ix3 u r d) = outOnce (score (qRow v0 r) (kRows v3) w) (vCol v6 d) := by
  rw [pay_eq_stored]
  unfold stored outOnce
  refine (shapeCast_ab_1ab_apply _ Gen.shapeCasts_S1024x128_S1x1024x128 u r d).trans ?_
  rw [divf_apply, pv_apply, bcastCol_apply (by decide), castCol_apply, lRow_apply]
  refine congrArg (fun x => Ideal.div x _) (Finset.sum_congr rfl fun k _ => ?_)
  refine congrArg₂ (· * ·) ?_ ?_
  · exact pW_apply v0 v3 w r k
  · exact shapeCast_1ab_ab_apply v6 Gen.shapeCasts_S1x2048x128_S2048x128 k d

end Cert.KernelIdeal.Pay

end
-- ==== Proof.AttnKernelValue.lean ====
/-
  What the kernel's result array holds after the run. The grid has 32 x 2 points; point (b, h) stages query rows
  1024 h ... 1024 h + 1023 of batch b, all key rows and all value rows of batch b, and writes back result rows
  1024 h ... 1024 h + 1023 of batch b; the body also reads the length word of batch b from the table. Each written
  block is the specification's attnOnce of the argument arrays restricted to the block (the body's stored element,
  with each loaded block read where its window puts it), every result index lies in exactly the block of the point
  (its batch, its row divided by 1024), and so the whole result array is attnOnce of the argument arrays.
-/
import proofs.«407189_j31748398252253_2_alg».proof.Proof.Gen.KernelIdeal.Frame
import proofs.«407189_j31748398252253_2_alg».proof.Proof.AttnKernelPay
import Idealize.ShloMosaic.Lib.Pipeline.Value
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.AttnValue

open Cert.KernelIdeal Cert.KernelIdeal.Gen Idealize.ShloMosaic.ValueIdx Cert.Attn

theorem hz : (![0, 0, 0] : Fin 3 → Nat) = fun _ => 0 := funext fun a => by fin_cases a <;> rfl

/-! ## The body's one store is the payload of its loaded blocks and the batch's length word -/

section Piece
variable {F : FTy → Type} [FloatOps F] [Named F]

/-- The length word the body loads at a grid point: the table at the point's batch coordinate. -/
def lenAt (i : grid0.Coords) (L : S32.Idx → Elt F .i32) : Elt F .i32 := L (ix1 (⟨(i 0).val, (i 0).isLt⟩ : Fin 32))

/-- What the body leaves in the output's staging buffer: the payload of the three input blocks and that word. -/
theorem out_eq (c : Dev nD) (i : grid0.Coords) (arg3 : Memref sig .tc .vmem S1x1024x128 .f32) (harg3 : arg3.IsWhole)
    (arg4 : Memref sig .tc .vmem S1x2048x128 .f32) (harg4 : arg4.IsWhole) (arg5 : Memref sig .tc .vmem S1x2048x128 .f32) (harg5 : arg5.IsWhole)
    (arg6 : Memref sig .tc .vmem S1x1024x128 .f32) (harg6 : arg6.IsWhole)
    (x0 : Vec F S1x1024x128 .f32) (x1 : Vec F S1x2048x128 .f32) (x2 : Vec F S1x2048x128 .f32) (xt0 : TbBuf0 (F := F) c tbM0_0) :
    out0_A_3 c i arg3 harg3 arg4 harg4 arg5 harg5 arg6 harg6 x0 x1 x2 xt0 = k0_pay1 x0 x1 x2 (lenAt i xt0) := by
  unfold out0_A_3
  rw [View.read_writes_eq_canon _ _ _ (cover0_A_3 c i arg3 harg3 arg4 harg4 arg5 harg5 arg6 harg6 x0 x1 x2 xt0)]
  unfold kernelRun0_A
  dsimp only
  sl_unfold_words
  rw [View.canon_unit_zero hz]
  simp only [View.readAt_eq_ld, harg3.read_unread, harg4.read_unread, harg5.read_unread,
    View.ld_unit_zero (S := S1x1024x128) hz, View.ld_unit_zero (S := S1x2048x128) hz]
  refine congrArg (k0_pay1 x0 x1 x2) ?_
  unfold lenAt
  show xt0 _ = xt0 _
  refine congrArg xt0 (funext fun a => Fin.ext ?_)
  match a with
  | ⟨0, _⟩ =>
    show (k0_off1 i) 0 + 1 * 0 = (i 0).val
    rw [k0_off1_eq]
    rfl

end Piece

/-! ## The index maps over the grid -/

theorem tr0_eq : ∀ i : grid0.Coords, cc0_transform_0 i = ![(i 0).val, (i 1).val, 0] := by decide +kernel
theorem tr1_eq : ∀ i : grid0.Coords, cc0_transform_1 i = ![(i 0).val, 0, 0] := by decide +kernel
theorem tr2_eq : ∀ i : grid0.Coords, cc0_transform_2 i = ![(i 0).val, 0, 0] := by decide +kernel
theorem tr3_eq : ∀ i : grid0.Coords, cc0_transform_3 i = ![(i 0).val, (i 1).val, 0] := by decide +kernel

/-- Every (batch, half) is some grid point's coordinates. -/
theorem coords_onto : ∀ (b : Fin 32) (h : Fin 2), ∃ t : Fin grid0.N, (grid0.coords t 0).val = b.val ∧ (grid0.coords t 1).val = h.val := by
  decide +kernel

/-! ## One block, over plain variables -/

/-- If the loaded query row r is row q of batch b of Q, the loaded key and value rows are those of batch b, and the
    word is the batch's length, then the stored element (r, d) of the block is attnOnce at (b, q, d). -/
theorem block_eq (Q K V : SA.Idx → EReal) (L : SL.Idx → BitVec 32) (b : Fin 32)
    (x0 : Vec Ideal S1x1024x128 .f32) (x1 x2 : Vec Ideal S1x2048x128 .f32) (wd : Elt Ideal .i32)
    (u : Fin 1) (r : Fin 1024) (d : Fin 128) (q : Fin 2048)
    (h0 : ∀ e : Fin 128, x0 (ix3 (0 : Fin 1) r e) = Q (ix3 b q e))
    (h1 : ∀ (k : Fin 2048) (e : Fin 128), x1 (ix3 (0 : Fin 1) k e) = K (ix3 b k e))
    (h2 : ∀ k : Fin 2048, x2 (ix3 (0 : Fin 1) k d) = V (ix3 b k d))
    (hw : wd = L (ix1 b)) :
    k0_pay1 (F := Ideal) x0 x1 x2 wd (ix3 u r d) = attnOnce Q K V L (ix3 b q d) := by
  rw [Pay.pay_apply]
  show outOnce _ _ = outOnce (rowScore Q K L b q) (valCol V b d)
  refine congrArg₂ outOnce ?_ ?_
  · funext k
    show score _ _ wd k = score _ _ (L (ix1 b)) k
    unfold score
    rw [hw]
    refine congrArg (fun x => Scalar.select _ (x * scale) ⊥) (Finset.sum_congr rfl fun e _ => ?_)
    exact congrArg₂ (· * ·) (h0 e) (h1 k e)
  · funext k
    exact h2 k

/-! ## The run's result array -/

variable (m : (ℓ : Loc nD τ sig) → Buf (Elt Ideal) ℓ) (ρ : Dev nD → PrngReg)

/-- The argument arrays as the region finds them, at their literal types. -/
abbrev Qa (c : Dev nD) : SA.Idx → EReal := V m c main_arg0
abbrev Ka (c : Dev nD) : SA.Idx → EReal := V m c main_arg1
abbrev Va (c : Dev nD) : SA.Idx → EReal := V m c main_arg2
abbrev La (c : Dev nD) : SL.Idx → BitVec 32 := V m c main_arg3

/-- The result: attention over the argument arrays. -/
abbrev result (c : Dev nD) : SA.Idx → EReal := attnOnce (Qa m c) (Ka m c) (Va m c) (La m c)

/-- The three input blocks at a point, at their literal types. -/
abbrev qblk (hO : Ok m) (c : Dev nD) (t : Fin (cfgM m hO).N) : Vec Ideal S1x1024x128 .f32 := iblk m hO c 0 t
abbrev kblk (hO : Ok m) (c : Dev nD) (t : Fin (cfgM m hO).N) : Vec Ideal S1x2048x128 .f32 := iblk m hO c 1 t
abbrev vblk (hO : Ok m) (c : Dev nD) (t : Fin (cfgM m hO).N) : Vec Ideal S1x2048x128 .f32 := iblk m hO c 2 t

/-- A point's batch and its half of the query rows. -/
def bAt (t : Fin grid0.N) : Fin 32 := ⟨(grid0.coords t 0).val, (grid0.coords t 0).isLt⟩
def hAt (t : Fin grid0.N) : Fin 2 := ⟨(grid0.coords t 1).val, (grid0.coords t 1).isLt⟩

/-- What the output's staging buffer holds after point t. -/
theorem outsAt_eq (hO : Ok m) (c : Dev nD) (t : Fin (cfgM m hO).N) :
    outsAt0 m hO c t = k0_pay1 (qblk m hO c t) (kblk m hO c t) (vblk m hO c t) (lenAt (grid0.coords t) (tbl m 0)) := by
  unfold outsAt0
  exact out_eq c (grid0.coords t) (ms0_0 m hO t) (hs0_0 m hO t) (ms0_1 m hO t) (hs0_1 m hO t) (ms0_2 m hO t) (hs0_2 m hO t)
    (ms0_3 m hO t) (hs0_3 m hO t) (qblk m hO c t) (kblk m hO c t) (vblk m hO c t) (tbl m 0)

/-- The query block at point t holds rows 1024 h ... of batch b of Q. -/
theorem qblk_apply (hO : Ok m) (c : Dev nD) (t : Fin (cfgM m hO).N) (r : Fin 1024) (e : Fin 128) (q : Fin 2048)
    (hq : q.val = (hAt t).val * 1024 + r.val) :
    qblk m hO c t (ix3 (0 : Fin 1) r e) = Qa m c (ix3 (bAt t) q e) := by
  show V m c main_arg0 ((((cfgM m hO).win 0).blk t).view.emb (ix3 (0 : Fin 1) r e)) = V m c main_arg0 (ix3 (bAt t) q e)
  refine congrArg (V m c main_arg0) (funext fun a => Fin.ext ?_)
  match a with
  | ⟨0, _⟩ => show cc0_transform_0 (grid0.coords t) 0 * 1 + 1 * 0 = (grid0.coords t 0).val; rw [tr0_eq]; show (grid0.coords t 0).val * 1 + 1 * 0 = _; omega
  | ⟨1, _⟩ => show cc0_transform_0 (grid0.coords t) 1 * 1024 + 1 * r.val = q.val; rw [tr0_eq, hq]; show (grid0.coords t 1).val * 1024 + 1 * r.val = (grid0.coords t 1).val * 1024 + r.val; omega
  | ⟨2, _⟩ => show cc0_transform_0 (grid0.coords t) 2 * 128 + 1 * e.val = e.val; rw [tr0_eq]; show 0 * 128 + 1 * e.val = _; omega

/-- The key block at point t holds all key rows of batch b. -/
theorem kblk_apply (hO : Ok m) (c : Dev nD) (t : Fin (cfgM m hO).N) (k : Fin 2048) (e : Fin 128) :
    kblk m hO c t (ix3 (0 : Fin 1) k e) = Ka m c (ix3 (bAt t) k e) := by
  show V m c main_arg1 ((((cfgM m hO).win 1).blk t).view.emb (ix3 (0 : Fin 1) k e)) = V m c main_arg1 (ix3 (bAt t) k e)
  refine congrArg (V m c main_arg1) (funext fun a => Fin.ext ?_)
  match a with
  | ⟨0, _⟩ => show cc0_transform_1 (grid0.coords t) 0 * 1 + 1 * 0 = (grid0.coords t 0).val; rw [tr1_eq]; show (grid0.coords t 0).val * 1 + 1 * 0 = _; omega
  | ⟨1, _⟩ => show cc0_transform_1 (grid0.coords t) 1 * 2048 + 1 * k.val = k.val; rw [tr1_eq]; show 0 * 2048 + 1 * k.val = _; omega
  | ⟨2, _⟩ => show cc0_transform_1 (grid0.coords t) 2 * 128 + 1 * e.val = e.val; rw [tr1_eq]; show 0 * 128 + 1 * e.val = _; omega

/-- The value block at point t holds all value rows of batch b. -/
theorem vblk_apply (hO : Ok m) (c : Dev nD) (t : Fin (cfgM m hO).N) (k : Fin 2048) (d : Fin 128) :
    vblk m hO c t (ix3 (0 : Fin 1) k d) = Va m c (ix3 (bAt t) k d) := by
  show V m c main_arg2 ((((cfgM m hO).win 2).blk t).view.emb (ix3 (0 : Fin 1) k d)) = V m c main_arg2 (ix3 (bAt t) k d)
  refine congrArg (V m c main_arg2) (funext fun a => Fin.ext ?_)
  match a with
  | ⟨0, _⟩ => show cc0_transform_2 (grid0.coords t) 0 * 1 + 1 * 0 = (grid0.coords t 0).val; rw [tr2_eq]; show (grid0.coords t 0).val * 1 + 1 * 0 = _; omega
  | ⟨1, _⟩ => show cc0_transform_2 (grid0.coords t) 1 * 2048 + 1 * k.val = k.val; rw [tr2_eq]; show 0 * 2048 + 1 * k.val = _; omega
  | ⟨2, _⟩ => show cc0_transform_2 (grid0.coords t) 2 * 128 + 1 * d.val = d.val; rw [tr2_eq]; show 0 * 128 + 1 * d.val = _; omega

/-- The word the body loads at point t is the length of batch b. -/
theorem len_eq (c : Dev nD) (t : Fin grid0.N) : lenAt (F := Ideal) (grid0.coords t) (tbl m 0) = La m c (ix1 (bAt t)) := by
  obtain rfl : c = 0 := Subsingleton.elim _ _
  rfl

/-- Where the output block at point t puts its element (r, d): row 1024 h + r of batch b, feature d. -/
theorem emb3_eq (hO : Ok m) (t : Fin (cfgM m hO).N) (u : Fin 1) (r : Fin 1024) (d : Fin 128) (q : Fin 2048)
    (hq : q.val = (hAt t).val * 1024 + r.val) :
    ((((cfgM m hO).win 3).blk t).view.emb (ix3 u r d) : S32x2048x128.Idx) = ix3 (bAt t) q d := by
  refine funext fun a => Fin.ext ?_
  have hu : u.val = 0 := by omega
  match a with
  | ⟨0, _⟩ => show cc0_transform_3 (grid0.coords t) 0 * 1 + 1 * u.val = (grid0.coords t 0).val; rw [tr3_eq, hu]; show (grid0.coords t 0).val * 1 + 1 * 0 = _; omega
  | ⟨1, _⟩ => show cc0_transform_3 (grid0.coords t) 1 * 1024 + 1 * r.val = q.val; rw [tr3_eq, hq]; show (grid0.coords t 1).val * 1024 + 1 * r.val = (grid0.coords t 1).val * 1024 + r.val; omega
  | ⟨2, _⟩ => show cc0_transform_3 (grid0.coords t) 2 * 128 + 1 * d.val = d.val; rw [tr3_eq]; show 0 * 128 + 1 * d.val = _; omega

/-- WHAT POINT t WRITES BACK is block t of the result. -/
theorem flushed_eq (hO : Ok m) (c : Dev nD) (t : Fin (cfgM m hO).N) :
    (dats m hO 0 c).flushed 3 t = (((cfgM m hO).win 3).blk t).view.read (Elt Ideal) (result m c) := by
  show ((cfgM m hO).win 3).cut (grid0.coords t) ((dats m hO 0 c).after 3 t) = _
  rw [after0_3, outsAt_eq]
  refine funext fun (y : S1x1024x128.Idx) => ?_
  obtain ⟨u, r, d, rfl⟩ : ∃ (u : Fin 1) (r : Fin 1024) (d : Fin 128), y = ix3 u r d := ⟨y 0, y 1, y 2, eq_ix3 y⟩
  have hr : r.val < 1024 := r.isLt
  have hh : (hAt t).val < 2 := (hAt t).isLt
  have hq : (⟨(hAt t).val * 1024 + r.val, by omega⟩ : Fin 2048).val = (hAt t).val * 1024 + r.val := rfl
  show k0_pay1 (F := Ideal) (qblk m hO c t) (kblk m hO c t) (vblk m hO c t) (lenAt (grid0.coords t) (tbl m 0)) (ix3 u r d)
      = result m c ((((cfgM m hO).win 3).blk t).view.emb (ix3 u r d))
  refine (block_eq (Qa m c) (Ka m c) (Va m c) (La m c) (bAt t) (qblk m hO c t) (kblk m hO c t) (vblk m hO c t)
    (lenAt (grid0.coords t) (tbl m 0)) u r d ⟨(hAt t).val * 1024 + r.val, by omega⟩
    (fun e => qblk_apply m hO c t r e _ hq) (fun k e => kblk_apply m hO c t k e) (fun k => vblk_apply m hO c t k d)
    (len_eq m c t)).trans ?_
  exact congrArg (result m c) (emb3_eq m hO t u r d _ hq).symm

/-- Every index of the result array lies in the block of the point at its batch and its row's half. -/
theorem cover (hO : Ok m) (i : S32x2048x128.Idx) :
    ∃ t : Fin (cfgM m hO).N, ((cfgM m hO).win 3).flush t = true ∧ i ∈ (((cfgM m hO).win 3).blk t).view.set := by
  have hi0 : (i 0).val < 32 := (i 0).isLt
  have hi1 : (i 1).val < 2048 := (i 1).isLt
  have hi2 : (i 2).val < 128 := (i 2).isLt
  obtain ⟨t, ht0, ht1⟩ := coords_onto ⟨(i 0).val, hi0⟩ ⟨(i 1).val / 1024, by omega⟩
  have ht0' : (grid0.coords t 0).val = (i 0).val := ht0
  have ht1' : (grid0.coords t 1).val = (i 1).val / 1024 := ht1
  refine ⟨t, flush0_3 (adm m hO) t, ?_⟩
  have hs : ((View.whole main_v0).slice (((cfgM m hO).win 3).rect t)).set = (((cfgM m hO).win 3).rect t).set :=
    View.set_slice_whole main_v0 (((cfgM m hO).win 3).rect t)
  refine (Finset.ext_iff.mp hs i).mpr ?_
  have key : ∀ a : Fin 3, cc0_transform_3 (grid0.coords t) a * S1x1024x128.size a ≤ (i a).val
      ∧ (i a).val < cc0_transform_3 (grid0.coords t) a * S1x1024x128.size a + S1x1024x128.size a := fun a => by
    rw [tr3_eq]
    match a with
    | ⟨0, _⟩ => show (grid0.coords t 0).val * 1 ≤ (i 0).val ∧ (i 0).val < (grid0.coords t 0).val * 1 + 1; omega
    | ⟨1, _⟩ => show (grid0.coords t 1).val * 1024 ≤ (i 1).val ∧ (i 1).val < (grid0.coords t 1).val * 1024 + 1024; omega
    | ⟨2, _⟩ => show 0 * 128 ≤ (i 2).val ∧ (i 2).val < 0 * 128 + 128; omega
  exact Rect.mem_set_unit.mpr key

/-- THE RESULT ARRAY after the run. -/
theorem final (hO : Ok m) (c : Dev nD) : (dats m hO 0 c).arrAt 3 (cfgM m hO).N = result m c :=
  (dats m hO 0 c).arrAt_eq_of_cover 3 (result m c) (fun t _ => flushed_eq m hO c t) (cover m hO)

/-- The run, read: the result array at attention over the arguments, the arguments unchanged. -/
theorem run (hO : Ok m) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).2 main_arg3 (by decide : main_arg3 ∈ Pipeline.restRefs sig spec0)).trans (V_main_arg3 m c)⟩)
    (run_main m ρ hO)

end Cert.KernelIdeal.AttnValue

end
-- ==== Proof.AttnRef.lean ====
/-
  The reference program's result, read index by index, is the specification's function attnEach.

  At index (b, q, d) the reference computes, in order: the inner products of query row (b, q) with every key row of
  batch b; their quotient by the divisor D, which on the extended reals is the product with the exact reciprocal of D;
  minus infinity in place of that where the key position is not below the length word of batch b (the masked scores);
  the maximum of the masked scores of the row, folded from minus infinity; exp of each masked score's distance below that
  maximum (the weights); the sum of the weights; each weight divided by that sum; and the sum over the keys of those
  quotients times column d of the value rows. Each stage is read here at coordinates and identified with the
  specification's name for it.
-/
import proofs.«407189_j31748398252253_2_alg».proof.Proof.Gen.ReferenceIdeal.Read
import proofs.«407189_j31748398252253_2_alg».proof.Proof.AttnSpec
import proofs.«407189_j31748398252253_2_alg».proof.Proof.AttnConsts
import Idealize.ShloMosaic.Lib.ValueIdx
import Idealize.ShloMosaic.PureOps.Ideal.Laws
import Idealize.ShloMosaic.PureOps.Reduce

noncomputable section

open scoped BigOperators

namespace Cert.Attn.Ref

open Idealize.ShloMosaic Idealize.ShloMosaic.ValueIdx Cert.ReferenceIdeal Cert.ReferenceIdeal.Read

/-- The arrays and the lengths, as the reference's stages take them. -/
abbrev Arr : Type := (⟨S32x2048x128, .f32⟩ : BufTy).Contents (Elt Ideal)
abbrev Len : Type := (⟨S32, .i32⟩ : BufTy).Contents (Elt Ideal)

/-! ## The divisor -/

/-- Dividing by the divisor D = 11863283 / 2^20 is multiplying by the scale 2^20 / 11863283. -/
theorem div_sqrt128 (x : EReal) : Ideal.div x (Ideal.ofBits .f32 0x413504F3#32) = x * Cert.Attn.scale := by
  rw [Cert.Attn.Consts.ofBits_sqrt128, Ideal.div_coe (by norm_num)]
  unfold Cert.Attn.scale
  congr 2
  norm_num

/-! ## The masked scores -/

/-- The masked score at (b, q, k) is the specification's score of key k for query row (b, q). -/
theorem score_stage (x0 x1 : Arr) (x3 : Len) (b : Fin 32) (q k : Fin 2048) :
    val_main_v9 (F := Ideal) x0 x1 x3 (ix3 b q k) = Cert.Attn.rowScore x0 x1 x3 b q k := by
  rw [val_main_v9_apply, val_main_call0_v1_apply, val_main_v8_apply, val_main_v6_apply, val_main_v4_apply,
    val_main_v3_apply, val_main_v7_apply, val_main_v5_apply, val_main_v2_apply, val_main_v0_apply, val_main_v1_apply,
    val_main_cst_apply, val_main_call0_v2_apply, val_main_call0_v0_apply, val_main_cst_0_apply]
  have e3 : idx_main_v5 (idx_main_v7 (idx_main_call0_v1 (ix3 b q k))) = ix1 b :=
    funext fun a => Fin.ext (by match a with | ⟨0, _⟩ => rfl)
  have el : ∀ e : Fin 128, lidx_main_v0 (ix3 b q k) e = ix3 b q e := fun e =>
    funext fun a => Fin.ext (by match a with | ⟨0, _⟩ => rfl | ⟨1, _⟩ => rfl | ⟨2, _⟩ => rfl)
  have er : ∀ e : Fin 128, ridx_main_v0 (ix3 b q k) e = ix3 b k e := fun e =>
    funext fun a => Fin.ext (by match a with | ⟨0, _⟩ => rfl | ⟨1, _⟩ => rfl | ⟨2, _⟩ => rfl)
  rw [e3, Ideal.hostDivf_def, Ideal.ofBits_def, Ideal.ofBits_def, Cert.Attn.Consts.ofBits_neg_inf, div_sqrt128]
  simp only [el, er]
  rfl

/-! ## The row maximum -/

/-- Dropping the key axis of [32, 2048, 2048] leaves [32, 2048]. -/
theorem reduces_keys : S32x2048x2048.Reduces [2] S32x2048 := by decide

/-- The row index (b, q) with the key position k put back on the dropped axis is (b, q, k). -/
theorem lift_keys (b : Fin 32) (q : Fin 2048) (k : Fin 2048) : reduces_keys.lift (ix2 b q) k = ix3 b q k :=
  funext fun a => Fin.ext (by match a with | ⟨0, _⟩ => rfl | ⟨1, _⟩ => rfl | ⟨2, _⟩ => rfl)

/-- The maximum of the masked scores of row (b, q): the fold of max from minus infinity over the key positions, and the
    further maximum with minus infinity changes nothing. -/
theorem max_stage (x0 x1 : Arr) (x3 : Len) (b : Fin 32) (q : Fin 2048) :
    val_main_v12 (F := Ideal) x0 x1 x3 (ix2 b q) = Cert.Attn.rowMax (Cert.Attn.rowScore x0 x1 x3 b q) := by
  rw [val_main_v12_apply, val_main_v11_apply, val_main_cst_2_apply, Ideal.ofBits_def, Cert.Attn.Consts.ofBits_neg_inf,
    Ideal.maximumf_def, max_eq_right bot_le]
  unfold val_main_v10
  rw [Host.reduce_eq_fold_single FloatOps.maximumf _ _ Gen.reducesTo_S32x2048x2048_S32x2048_d2 reduces_keys Gen.h_S_ (ix2 b q)]
  have hf : val_main_v9 (F := Ideal) x0 x1 x3 ∘ reduces_keys.lift (ix2 b q) = Cert.Attn.rowScore x0 x1 x3 b q := by
    funext k
    rw [Function.comp_apply]
    exact (congrArg (val_main_v9 (F := Ideal) x0 x1 x3) (lift_keys b q k)).trans (score_stage x0 x1 x3 b q k)
  rw [hf, val_main_cst_1_apply, Ideal.ofBits_def, Cert.Attn.Consts.ofBits_neg_inf]
  rfl

/-! ## The weights and their sum -/

/-- The weight at (b, q, k): exp of the masked score's distance below the row maximum. -/
theorem weight_stage (x0 x1 : Arr) (x3 : Len) (b : Fin 32) (q k : Fin 2048) :
    val_main_v16 (F := Ideal) x0 x1 x3 (ix3 b q k) = Cert.Attn.weight (Cert.Attn.rowScore x0 x1 x3 b q) k := by
  have e : idx_main_v13 (idx_main_v14 (ix3 b q k)) = ix2 b q :=
    funext fun a => Fin.ext (by match a with | ⟨0, _⟩ => rfl | ⟨1, _⟩ => rfl)
  rw [val_main_v16_apply, val_main_v15_apply, val_main_v14_apply, val_main_v13_apply, Ideal.hostUnary_exp_def,
    Ideal.subf_def, score_stage, e, max_stage]
  rfl

/-- The sum of the weights of row (b, q): the reduction starts from zero. -/
theorem sum_stage (x0 x1 : Arr) (x3 : Len) (b : Fin 32) (q : Fin 2048) :
    val_main_v17 (F := Ideal) x0 x1 x3 (ix2 b q) = ∑ k : Fin 2048, Cert.Attn.weight (Cert.Attn.rowScore x0 x1 x3 b q) k := by
  rw [val_main_v17_apply, val_main_cst_3_apply, Ideal.ofBits_def, Ideal.ofBits_zero_f32, zero_add]
  refine Finset.sum_congr rfl fun k _ => ?_
  have e : idx_main_v17 (ix2 b q) k = ix3 b q k :=
    funext fun a => Fin.ext (by match a with | ⟨0, _⟩ => rfl | ⟨1, _⟩ => rfl | ⟨2, _⟩ => rfl)
  rw [e, weight_stage]

/-- The normalised weight at (b, q, k): the weight divided by the sum of the row's weights. -/
theorem norm_stage (x0 x1 : Arr) (x3 : Len) (b : Fin 32) (q k : Fin 2048) :
    val_main_v20 (F := Ideal) x0 x1 x3 (ix3 b q k)
      = Ideal.div (Cert.Attn.weight (Cert.Attn.rowScore x0 x1 x3 b q) k)
          (∑ j : Fin 2048, Cert.Attn.weight (Cert.Attn.rowScore x0 x1 x3 b q) j) := by
  have e : idx_main_v18 (idx_main_v19 (ix3 b q k)) = ix2 b q :=
    funext fun a => Fin.ext (by match a with | ⟨0, _⟩ => rfl | ⟨1, _⟩ => rfl)
  rw [val_main_v20_apply, val_main_v19_apply, val_main_v18_apply, Ideal.hostDivf_def, weight_stage, e, sum_stage]

/-! ## The result -/

/-- The reference's result is the specification's attention output with each weight normalised first. -/
theorem ref_eq_attnEach (x0 x1 x2 : (⟨Cert.ReferenceIdeal.S32x2048x128, .f32⟩ : BufTy).Contents (Elt Ideal))
    (x3 : (⟨Cert.ReferenceIdeal.S32, .i32⟩ : BufTy).Contents (Elt Ideal)) :
    Cert.ReferenceIdeal.Read.val_main_v21 (F := Ideal) x0 x1 x2 x3 = Cert.Attn.attnEach x0 x1 x2 x3 := by
  funext i
  obtain ⟨b, q, d, rfl⟩ : ∃ (b : Fin 32) (q : Fin 2048) (d : Fin 128), i = ix3 b q d := ⟨i 0, i 1, i 2, eq_ix3 i⟩
  rw [val_main_v21_apply]
  show _ = Cert.Attn.outEach (Cert.Attn.rowScore x0 x1 x3 b q) (Cert.Attn.valCol x2 b d)
  unfold Cert.Attn.outEach
  refine Finset.sum_congr rfl fun k _ => ?_
  have el : lidx_main_v21 (ix3 b q d) k = ix3 b q k :=
    funext fun a => Fin.ext (by match a with | ⟨0, _⟩ => rfl | ⟨1, _⟩ => rfl | ⟨2, _⟩ => rfl)
  have er : ridx_main_v21 (ix3 b q d) k = ix3 b k d :=
    funext fun a => Fin.ext (by match a with | ⟨0, _⟩ => rfl | ⟨1, _⟩ => rfl | ⟨2, _⟩ => rfl)
  rw [el, er, norm_stage]
  rfl

end Cert.Attn.Ref

end
-- ==== Proof.AttnPre.lean ====
/-
  The printed precondition, decoded. The precondition is one i1 word: the conjunction of four jnp.all, of
  |Q| < +inf, |K| < +inf, |V| < +inf elementwise and of L >= 1 elementwise. When that word is 1, every element of
  Q, K and V is a real number (neither infinity of the extended reals), and every length word is positive as a
  signed 32-bit word.
-/
import proofs.«407189_j31748398252253_2_alg».proof.Pre_finite_inputs
import proofs.«407189_j31748398252253_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.Attn

open Idealize.ShloMosaic Idealize.ShloMosaic.ValueIdx

/-- The f32 word 0x7F800000 is plus infinity. -/
theorem ofBits_pos_inf : Ideal.ofBits .f32 0x7F800000#32 = (⊤ : EReal) := by
  simp [Ideal.ofBits, Ideal.ieee]

/-- An extended real whose absolute value max x (-x) lies strictly below plus infinity is a real: at minus
    infinity the negation is plus infinity, at plus infinity the value itself is. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- A signed 32-bit word that is at least 1 lies strictly above 0. -/
theorem pos_of_sge_one (w : BitVec 32) (h : IntOp.cmpi .sge w 1#32 = 1#1) :
    IntOp.cmpi .slt (BitVec.ofNat 32 0) w = 1#1 := by
  simp only [IntOp.cmpi, StableHlo.Predicate.ofBool_eq_one_iff, BitVec.sle, BitVec.slt, decide_eq_true_eq] at h ⊢
  have h1 : (1#32 : BitVec 32).toInt = 1 := by decide
  have h0 : (BitVec.ofNat 32 0).toInt = 0 := by decide
  omega

/-- The scalar shape has one index. -/
instance subsingleton_scalar_idx : Subsingleton Cert.Pre_finite_inputs.S_.Idx :=
  ⟨fun a b => funext fun d => d.elim0⟩

section
open Cert.Pre_finite_inputs

/-- One jnp.all of |X| < +inf read back: when the reduction by and of the elementwise comparison is 1, every
    element of X is a real. -/
theorem real_of_all_abs_lt_inf (X : FVec Ideal S32x2048x128 .f32)
    (hb : S_.BroadcastsInDim S32x2048x128 (![] : Fin 0 → Fin S32x2048x128.rank))
    (hred : S32x2048x128.ReducesTo [0, 1, 2] S_) (hu : 0 < S_.numel)
    (e : Host.reduce IntOp.andi
        (cmpf .olt (Host.absf X) (broadcastInDim S32x2048x128 ![] hb (constant S_ .f32 0x7F800000#32)))
        (constantI S_ 1 1#1) hred hu ix0 = 1#1)
    (i : S32x2048x128.Idx) : ∃ r : ℝ, X i = (r : EReal) := by
  have hi := Host.reduce_andi_all _ _ hred hu ix0 e i
  refine real_of_abs_lt_top (X i) ?_
  rw [← ofBits_pos_inf]
  exact hi

/-- The jnp.all of L >= 1 read back: every length word is positive. -/
theorem pos_of_all_sge_one (L : IVec S32 32)
    (hb : S_.BroadcastsInDim S32 (![] : Fin 0 → Fin S32.rank))
    (hred : S32.ReducesTo [0] S_) (hu : 0 < S_.numel)
    (e : Host.reduce IntOp.andi (cmpi .sge L (broadcastInDim S32 ![] hb (constantI S_ 32 1#32)))
        (constantI S_ 1 1#1) hred hu ix0 = 1#1)
    (i : S32.Idx) : IntOp.cmpi .slt (BitVec.ofNat 32 0) (L i) = 1#1 := by
  have hi := Host.reduce_andi_all _ _ hred hu ix0 e i
  exact pos_of_sge_one (L i) hi

end

theorem facts_of_pre [Cert.Pre_finite_inputs.Facts]
    (Q K V : FVec Ideal Cert.Pre_finite_inputs.S32x2048x128 .f32) (L : IVec Cert.Pre_finite_inputs.S32 32)
    (h : Cert.Pre_finite_inputs.fn (F := Ideal) Q K V L = fun _ => 1#1) :
    (∀ i, ∃ r : ℝ, Q i = (r : EReal)) ∧ (∀ i, ∃ r : ℝ, K i = (r : EReal)) ∧ (∀ i, ∃ r : ℝ, V i = (r : EReal))
      ∧ (∀ b : Fin 32, IntOp.cmpi .slt (BitVec.ofNat 32 0) (L (ix1 b)) = 1#1) := by
  have h0 := congrFun h ValueIdx.ix0
  dsimp only [Cert.Pre_finite_inputs.fn, Cert.Pre_finite_inputs.fn_part1] at h0
  obtain ⟨hQKV, hL⟩ := IntOp.andi_eq_one.1 h0
  obtain ⟨hQK, hV⟩ := IntOp.andi_eq_one.1 hQKV
  obtain ⟨hQ, hK⟩ := IntOp.andi_eq_one.1 hQK
  exact ⟨real_of_all_abs_lt_inf Q _ _ _ hQ, real_of_all_abs_lt_inf K _ _ _ hK, real_of_all_abs_lt_inf V _ _ _ hV,
    fun b => pos_of_all_sge_one L _ _ _ hL (ix1 b)⟩

end Cert.Attn

end
-- ==== Proof.AttnLaw.lean ====
/-
  The two ways of finishing a softmax row agree on the extended reals.

  Hypotheses: every score is below plus infinity and one score is a real. Then the row maximum M is a real, every
  weight exp (s k - M) is a nonnegative real, one weight is positive, so the sum of the weights is a positive
  real. With real values both expressions are coercions of real numbers, the division unfolds to multiplication
  by the reciprocal of a nonzero real, and the identity (sum p k * v k) * l⁻¹ = sum (p k * l⁻¹) * v k is
  distributivity in the reals.
-/
import proofs.«407189_j31748398252253_2_alg».proof.Proof.AttnSpec

noncomputable section

open scoped BigOperators

namespace Cert.Attn

open Idealize.ShloMosaic

section Law
variable {ι : Type} [Fintype ι]

/-- A finite sum of coerced reals is the coercion of the real sum. -/
theorem coe_finsum (t : Finset ι) (f : ι → ℝ) :
    (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- With all scores below plus infinity and one score real, the row maximum is a real. -/
theorem rowMax_real (s : ι → EReal) (hs : ∀ k, s k ≠ ⊤) (k0 : ι) (h0 : s k0 ≠ ⊥) :
    ∃ m : ℝ, rowMax s = (m : EReal) := by
  have htop : rowMax s ≠ ⊤ := by
    have h : rowMax s < ⊤ :=
      (Finset.fold_max_lt _).2 ⟨bot_lt_top, fun x _ => lt_top_iff_ne_top.2 (hs x)⟩
    exact ne_of_lt h
  have hle : s k0 ≤ rowMax s :=
    (Finset.le_fold_max _).2 (Or.inr ⟨k0, Finset.mem_univ _, le_rfl⟩)
  have hbot : rowMax s ≠ ⊥ := by
    intro hb
    rw [hb] at hle
    exact h0 (le_bot_iff.1 hle)
  exact ⟨(rowMax s).toReal, (EReal.coe_toReal htop hbot).symm⟩

/-- Against a real row maximum, the weight of a score below plus infinity is a nonnegative real,
    and it is positive when the score is itself a real. -/
theorem weight_real (s : ι → EReal) (m : ℝ) (hm : rowMax s = (m : EReal)) (k : ι) (hk : s k ≠ ⊤) :
    ∃ p : ℝ, 0 ≤ p ∧ (s k ≠ ⊥ → 0 < p) ∧ weight s k = (p : EReal) := by
  unfold weight
  rw [hm]
  induction h : s k using EReal.rec with
  | bot =>
    refine ⟨0, le_rfl, fun hne => absurd rfl hne, ?_⟩
    rw [EReal.bot_sub, Ideal.exp_bot, EReal.coe_zero]
  | coe r =>
    refine ⟨Real.exp (r - m), (Real.exp_pos _).le, fun _ => Real.exp_pos _, ?_⟩
    rw [← EReal.coe_sub, Ideal.exp_coe]
  | top => exact absurd h hk

/-- Dividing a real by a nonzero real is multiplying by the reciprocal, in the reals. -/
theorem div_coe (a l : ℝ) (hl : l ≠ 0) :
    Ideal.div (a : EReal) (l : EReal) = ((a * l⁻¹ : ℝ) : EReal) := by
  have hl' : (l : EReal) ≠ 0 := by
    intro h
    exact hl (EReal.coe_eq_zero.1 h)
  unfold Ideal.div
  rw [if_neg hl', ← EReal.coe_inv, ← EReal.coe_mul]

theorem outOnce_eq_outEach (s v : ι → EReal)
    (hs : ∀ k, s k ≠ ⊤) (k0 : ι) (h0 : s k0 ≠ ⊥) (hv : ∀ k, ∃ r : ℝ, v k = (r : EReal)) :
    outOnce s v = outEach s v := by
  obtain ⟨m, hm⟩ := rowMax_real s hs k0 h0
  choose pr hp0 hppos hpr using fun k => weight_real s m hm k (hs k)
  choose vr hvr using hv
  -- the sum of the weights is a positive real
  have hlpos : 0 < ∑ k, pr k :=
    Finset.sum_pos' (fun k _ => hp0 k) ⟨k0, Finset.mem_univ _, hppos k0 h0⟩
  have hl : (∑ k, pr k) ≠ 0 := ne_of_gt hlpos
  have hsum : (∑ k, weight s k) = ((∑ k, pr k : ℝ) : EReal) := by
    rw [← coe_finsum]
    exact Finset.sum_congr rfl (fun k _ => hpr k)
  have hnum : (∑ k, weight s k * v k) = ((∑ k, pr k * vr k : ℝ) : EReal) := by
    rw [← coe_finsum]
    refine Finset.sum_congr rfl (fun k _ => ?_)
    rw [hpr k, hvr k, ← EReal.coe_mul]
  have heach : (∑ k, Ideal.div (weight s k) (∑ j, weight s j) * v k)
      = ((∑ k, pr k * (∑ j, pr j)⁻¹ * vr k : ℝ) : EReal) := by
    rw [← coe_finsum]
    refine Finset.sum_congr rfl (fun k _ => ?_)
    rw [hsum, hpr k, hvr k, div_coe _ _ hl, ← EReal.coe_mul]
  unfold outOnce outEach
  rw [heach, hnum, hsum, div_coe _ _ hl, Finset.sum_mul]
  congr 1
  exact Finset.sum_congr rfl (fun k _ => by ring)

end Law

end Cert.Attn

end
-- ==== Proof.AttnScore.lean ====
/-
  Two facts about a row of masked scores when the queries and keys are real numbers. A score is either the scaled
  inner product of two real vectors, which is a real, or minus infinity: in both cases it lies below plus infinity.
  And where the length word is positive as a signed word, position 0 lies below it, so the score of key 0 is the
  scaled inner product itself, a real, in particular not minus infinity.
-/
import proofs.«407189_j31748398252253_2_alg».proof.Proof.AttnSpec
import proofs.«407189_j31748398252253_2_alg».proof.Proof.AttnLaw

noncomputable section

open scoped BigOperators

namespace Cert.Attn

open Idealize.ShloMosaic Idealize.ShloMosaic.ValueIdx

/-- The scaled inner product of two real vectors is a real. -/
theorem dot_real (q kk : Fin 128 → EReal) (hq : ∀ e, ∃ x : ℝ, q e = (x : EReal)) (hk : ∀ e, ∃ x : ℝ, kk e = (x : EReal)) :
    ∃ x : ℝ, (∑ e : Fin 128, q e * kk e) * scale = (x : EReal) := by
  choose qr hqr using hq
  choose kr hkr using hk
  refine ⟨(∑ e : Fin 128, qr e * kr e) * ((1048576 : ℝ) / 11863283), ?_⟩
  unfold scale
  rw [EReal.coe_mul, ← coe_finsum]
  congr 1
  exact Finset.sum_congr rfl fun e _ => by rw [hqr, hkr, EReal.coe_mul]

/-- Every masked score lies below plus infinity. -/
theorem score_ne_top (q : Fin 128 → EReal) (K : Fin 2048 → Fin 128 → EReal) (w : BitVec 32) (k : Fin 2048)
    (hq : ∀ e, ∃ x : ℝ, q e = (x : EReal)) (hK : ∀ k e, ∃ x : ℝ, K k e = (x : EReal)) : score q K w k ≠ ⊤ := by
  unfold score Scalar.select
  split
  · obtain ⟨x, hx⟩ := dot_real q (K k) hq (hK k)
    rw [hx]
    exact EReal.coe_ne_top x
  · exact bot_ne_top

/-- Under a positive length word the score of key 0 is a real. -/
theorem score_zero_ne_bot (q : Fin 128 → EReal) (K : Fin 2048 → Fin 128 → EReal) (w : BitVec 32)
    (hq : ∀ e, ∃ x : ℝ, q e = (x : EReal)) (hK : ∀ k e, ∃ x : ℝ, K k e = (x : EReal))
    (hw : IntOp.cmpi .slt (BitVec.ofNat 32 0) w = 1#1) : score q K w (0 : Fin 2048) ≠ ⊥ := by
  unfold score
  rw [show ((0 : Fin 2048).val) = 0 from rfl, hw, select_one]
  obtain ⟨x, hx⟩ := dot_real q (K 0) hq (hK 0)
  rw [hx]
  exact EReal.coe_ne_bot x

/-- The two finishes agree on whole arrays of reals under positive length words. -/
theorem attnOnce_eq_attnEach (Q K V : SA.Idx → EReal) (L : SL.Idx → BitVec 32)
    (hQ : ∀ i, ∃ x : ℝ, Q i = (x : EReal)) (hK : ∀ i, ∃ x : ℝ, K i = (x : EReal)) (hV : ∀ i, ∃ x : ℝ, V i = (x : EReal))
    (hL : ∀ b : Fin 32, IntOp.cmpi .slt (BitVec.ofNat 32 0) (L (ix1 b)) = 1#1) :
    attnOnce Q K V L = attnEach Q K V L := by
  funext i
  unfold attnOnce attnEach
  refine outOnce_eq_outEach _ _ (fun k => ?_) (0 : Fin 2048) ?_ (fun k => ?_)
  · exact score_ne_top _ _ _ k (fun e => hQ _) (fun k e => hK _)
  · exact score_zero_ne_bot _ _ _ (fun e => hQ _) (fun k e => hK _) (hL (i 0))
  · exact hV _

end Cert.Attn

end
-- ==== Proof.lean ====
/-
  Masked softmax attention: a kernel that, per batch element and half of the query rows, forms the scaled scores
  against all keys, masks the keys at and beyond the batch's length with minus infinity, takes exp of each score's
  distance below the row maximum, and divides the weighted sum of the value rows ONCE by the sum of the weights;
  against a reference that normalises each weight by the sum first and then sums. On the extended reals the two are
  one function where every query, key and value is a real number and every length is at least 1: then each row has a
  real maximum, its weights are nonnegative reals with a positive sum, and dividing a finite sum of reals by a nonzero
  real distributes over the sum. The kernel's scale word is read as the exact reciprocal of the divisor the reference
  spells (the f32 nearest to the square root of 128), so multiplying by it is dividing by that divisor, and the
  kernel's finite mask fill is read as minus infinity: the two entries of the idealization's ledger.
  A length below 1 leaves a row with no key; there the weights are all zero, the reference's own quotient 0 / 0 is
  not a number, and the two expressions differ: the precondition excludes it.
-/
import proofs.«407189_j31748398252253_2_alg».proof.Defs
import proofs.«407189_j31748398252253_2_alg».proof.Proof.Gen.Kernel
import proofs.«407189_j31748398252253_2_alg».proof.Proof.Gen.Kernel.Skeleton
import proofs.«407189_j31748398252253_2_alg».proof.Proof.Gen.Kernel.Launch
import proofs.«407189_j31748398252253_2_alg».proof.Proof.Gen.Kernel.Points
import proofs.«407189_j31748398252253_2_alg».proof.Proof.Gen.Kernel.Frame
import proofs.«407189_j31748398252253_2_alg».proof.Proof.Gen.KernelIdeal
import proofs.«407189_j31748398252253_2_alg».proof.Proof.Gen.KernelIdeal.Skeleton
import proofs.«407189_j31748398252253_2_alg».proof.Proof.Gen.KernelIdeal.Launch
import proofs.«407189_j31748398252253_2_alg».proof.Proof.Gen.KernelIdeal.Points
import proofs.«407189_j31748398252253_2_alg».proof.Proof.Gen.KernelIdeal.Frame
import proofs.«407189_j31748398252253_2_alg».proof.Proof.Gen.ReferenceIdeal
import proofs.«407189_j31748398252253_2_alg».proof.Proof.Gen.ReferenceIdeal.Run
import proofs.«407189_j31748398252253_2_alg».proof.Proof.Gen.ReferenceIdeal.Read
import proofs.«407189_j31748398252253_2_alg».proof.Proof.Gen.Pre_finite_inputs
import proofs.«407189_j31748398252253_2_alg».proof.Proof.AttnKernelValue
import proofs.«407189_j31748398252253_2_alg».proof.Proof.AttnRef
import proofs.«407189_j31748398252253_2_alg».proof.Proof.AttnPre
import proofs.«407189_j31748398252253_2_alg».proof.Proof.AttnScore
import Idealize.ShloMosaic.Adequacy
import Idealize.ShloMosaic.Init

noncomputable section

namespace Cert.Proof

open Idealize.ShloMosaic Idealize.SL.Sem

/-- The kernel's index maps read no table, so the side condition on the tables is trivially met: the kernel as
    printed runs and leaves its arguments as they were. -/
theorem frame_k : Cert.frame_Kernel (hKernel := Cert.Kernel.Gen.facts) (hPre_finite_inputs := Cert.Pre_finite_inputs.Gen.facts) :=
  fun m ρ _ => Cert.Kernel.Gen.frame m ρ True.intro

/-- The same for the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ True.intro

/-- The reference is a straight line of host operations: it runs, and its arguments are left as they were. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two named words: the scale is the table's exact reciprocal of the divisor, the mask fill its minus infinity. -/
theorem preserves : Cert.preserves_Kernel_KernelIdeal :=
  ⟨IdealRules.named_const.statement Cert.KernelIdeal.κ "inv_sqrt_d" .f32 0x3DB504F3#32 ((1048576 / 11863283 : ℝ) : EReal) rfl,
   IdealRules.named_const.statement Cert.KernelIdeal.κ "neg_big" .f32 0xFF333332#32 ⊥ rfl⟩

/-- Both programs end with the result array at attention over the arguments: the kernel dividing once, the reference
    normalising each weight; under the precondition the two agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.AttnValue.result m c, Cert.KernelIdeal.AttnValue.run m ρ True.intro, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2,
    Cert.Attn.Ref.ref_eq_attnEach]
  obtain ⟨hQ, hK, hV, hL⟩ := Cert.Attn.facts_of_pre _ _ _ _ (hpre c)
  exact (Cert.Attn.attnOnce_eq_attnEach _ _ _ _ hQ hK hV hL).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
